-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) (main_arg1 : FVec F S64x3x512x512 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S64x3x512x512 .f32 := Host.absf main_arg1
  let main_cst_0 : FVec F S_ .f32 := constant S_ .f32 0x7F800000#32
  let main_v5 : FVec F S64x3x512x512 .f32 := broadcastInDim S64x3x512x512 ![] bcast_S_S64x3x512x512 main_cst_0
  let main_v6 : IVec S64x3x512x512 1 := cmpf .olt main_v4 main_v5
  let main_c_1 : IVec S_ 1 := constantI S_ 1 1#1
  let main_v7 : IVec S_ 1 := (fun x v => Host.reduce IntOp.andi x v reducesTo_S64x3x512x512_S_d0_1_2_3 h_S_) main_v6 main_c_1
  let main_v8 : IVec S_ 1 := andi main_v3 main_v7
  main_v8
-- ==== Kernel.lean ====
abbrev S64x3x512x512 : Shape := ⟨4, ![64, 3, 512, 512]⟩
abbrev S98304x512 : Shape := ⟨2, ![98304, 512]⟩
abbrev S3072x512 : Shape := ⟨2, ![3072, 512]⟩

abbrev nBuf : Space → Nat
  | .hbm => 6
  | .vmem => 6
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S98304x512, .f32⟩
  | .hbm, ⟨3, _⟩ => ⟨S98304x512, .f32⟩
  | .hbm, ⟨4, _⟩ => ⟨S98304x512, .f32⟩
  | .hbm, ⟨5, _⟩ => ⟨S64x3x512x512, .f32⟩
  | .local _ .vmem, ⟨0, _⟩ => ⟨S3072x512, .f32⟩
  | .local _ .vmem, ⟨1, _⟩ => ⟨S3072x512, .f32⟩
  | .local _ .vmem, ⟨2, _⟩ => ⟨S3072x512, .f32⟩
  | .local _ .vmem, ⟨3, _⟩ => ⟨S3072x512, .f32⟩
  | .local _ .vmem, ⟨4, _⟩ => ⟨S3072x512, .f32⟩
  | .local _ .vmem, ⟨5, _⟩ => ⟨S3072x512, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3072x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3072x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x3x512x512_S98304x512 : S64x3x512x512.ShapeCasts S98304x512
  shapeCasts_S98304x512_S64x3x512x512 : S98304x512.ShapeCasts S64x3x512x512
  inb_S3072x512_S3072x512_0_0 : ∀ a, (![0, 0] : Fin 2 → Nat) a + S3072x512.size a ≤ S3072x512.size a
  h_S3072x512 : 0 < S3072x512.numel
  shapeCasts_S3072x512_S3072x512 : S3072x512.ShapeCasts S3072x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3072x512.size a ≤ S98304x512.size a
  hwx0_0 : ∀ i : grid0.Coords, EltTy.bits .f32 = 32 ∨ (Rect.block (s := S98304x512) S3072x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3072x512.size a ≤ S98304x512.size a
  hwx0_1 : ∀ i : grid0.Coords, EltTy.bits .f32 = 32 ∨ (Rect.block (s := S98304x512) S3072x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3072x512.size a ≤ S98304x512.size a
  hwx0_2 : ∀ i : grid0.Coords, EltTy.bits .f32 = 32 ∨ (Rect.block (s := S98304x512) S3072x512.size (cc0_transform_2 i) (hinb0_2 i)).WholeWords (EltTy.packing .f32)

variable [Facts₀]

abbrev win0_0 : Pipeline.Window sig grid0 :=
  Pipeline.Window.ofSpec (Memref.whole main_call0_v0) S3072x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S3072x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S3072x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S64x3x512x512 : Shape := ⟨4, ![64, 3, 512, 512]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S64x3x512x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S64x3x512x512, .f32⟩
  | .hbm, ⟨7, _⟩ => ⟨S64x3x512x512, .f32⟩
  | .hbm, ⟨8, _⟩ => ⟨S_, .f32⟩
  | .hbm, ⟨9, _⟩ => ⟨S64x3x512x512, .f32⟩
  | .hbm, ⟨10, _⟩ => ⟨S64x3x512x512, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩

abbrev nD : Nat := 1
abbrev τ : Topo := Topo.v7x

variable {F : FTy → Type} [FloatOps F]

class Facts₀ : Prop where
  bcast_S_S64x3x512x512 : S_.BroadcastsInDim S64x3x512x512 (![] : Fin 0 → Fin S64x3x512x512.rank)

variable [Facts₀]

class Facts : Prop extends Facts₀ where

variable [Facts]
-- ==== Proof.ClipSum.lean ====
/-
  The function both programs compute, entry by entry: the sum of two entries clipped to the unit interval,
  `min 1 (max 0 (a + b))`, the two constants being the float words of 0 and of 1. It is stated over an abstract
  float instance: nothing about the extended reals is needed, because the two programs apply the same three
  operations, in the same order, to the same operands. They differ only in how the entries are laid out (the kernel
  runs over the arrays re-laid as 98304 rows of 512 entries, block of 3072 rows by block), and an entrywise function
  commutes with any re-laying of the entries.
-/
import Idealize.ShloMosaic.PureOps
import Idealize.ShloMosaic.Lib.Pipeline.Value

noncomputable section

namespace Cert.ClipSum

open Idealize.ShloMosaic

variable {F : FTy → Type} [FloatOps F]

/-- One entry: the sum `a + b`, raised to 0 where it is below and lowered to 1 where it is above. -/
def clip01 (a b : F .f32) : F .f32 :=
  FloatOps.minimumf (FloatOps.ofBits .f32 0x3F800000#32)
    (FloatOps.maximumf (FloatOps.ofBits .f32 0x00000000#32) (FloatOps.addf a b))

/-- The same at every index of two arrays of one shape. -/
def clipSum {s : Shape} (x n : FVec F s .f32) : FVec F s .f32 := fun i => clip01 (x i) (n i)

theorem clipSum_apply {s : Shape} (x n : FVec F s .f32) (i : s.Idx) : clipSum x n i = clip01 (x i) (n i) := rfl

/-- The vector form the programs spell it in: a minimum with the splat of 1 of a maximum with the splat of 0 of the sum. -/
theorem clipSum_eq_ops {s : Shape} (x n : FVec F s .f32) :
    minimumf (broadcast s (FloatOps.ofBits .f32 0x3F800000#32))
      (maximumf (broadcast s (FloatOps.ofBits .f32 0x00000000#32)) (addf x n)) = clipSum x n := rfl

/-- An entrywise function commutes with re-laying the entries under another shape: both sides read, at an index of
    the new shape, the two operands at the one index of the old shape with the same row-major position. -/
theorem clipSum_shapeCast {s t : Shape} (x n : FVec F s .f32) (h : s.ShapeCasts t) :
    clipSum (shapeCast t x h) (shapeCast t n h) = shapeCast t (clipSum x n) h := rfl

/-- Re-laid, clipped entrywise, and laid back as they were: the clip of the arrays themselves. -/
theorem shapeCast_clipSum_shapeCast {s t : Shape} (x n : FVec F s .f32) (h : s.ShapeCasts t) (h' : t.ShapeCasts s) :
    shapeCast s (clipSum (shapeCast t x h) (shapeCast t n h)) h' = clipSum x n := by
  rw [clipSum_shapeCast, shapeCast_shapeCast]

end Cert.ClipSum

end
-- ==== Proof.KernelValue.lean ====
/-
  What the kernel's program leaves in its result array, read off its frame run.

  The program re-lays both arguments as 98304 rows of 512 entries, runs the kernel over 32 blocks of 3072 rows — at
  each block the body loads the two operand blocks whole, adds them, clips the sum to [0, 1] and stores the block
  whole —, and lays the 98304 x 512 result back under the arguments' shape. Block `t` of all three windows is rows
  `3072 t … 3072 t + 3071`, every column; the 32 blocks tile the array. So after the region the 98304 x 512 result
  holds the entrywise clipped sum of the two re-laid arguments, and, the function being entrywise, the final array
  holds the entrywise clipped sum of the arguments themselves.
-/
import proofs.«403208_j61426622267935_3_alg».proof.Proof.Gen.KernelIdeal.Frame
import proofs.«403208_j61426622267935_3_alg».proof.Proof.ClipSum
import Idealize.ShloMosaic.Lib.Pipeline.Value
import Idealize.ShloMosaic.Lib.StableHlo.Run

set_option maxRecDepth 16384

noncomputable section

namespace Cert.KernelIdeal.ClipValue

open Cert.KernelIdeal Cert.KernelIdeal.Gen Idealize.ShloMosaic Idealize.ShloMosaic.TcCoe Idealize.SL.Sem
open Idealize.ShloMosaic.Pipeline (Dat)
open Cert.ClipSum

variable {F : FTy → Type} [FloatOps F]
variable (m : (ℓ : Loc nD τ sig) → Buf (Elt F) ℓ) (ρ : Dev nD → PrngReg)

/-! ## One block -/

theorem offsets_zero : (![0, 0] : Fin 2 → Nat) = fun _ => 0 := funext fun a => by fin_cases a <;> rfl

/-- The body's stored value is the entrywise clipped sum of its two loaded blocks (its two casts of a block to its
    own shape change nothing). -/
theorem payload_eq (x0 x1 : Vec F S3072x512 .f32) : k0_pay1 x0 x1 = clipSum (s := S3072x512) x0 x1 := by
  unfold k0_pay1
  simp only [shapeCast_self]
  rfl

/-- The entrywise clipped sum of the two operand arrays as the region finds them. -/
abbrev relaid (a0 a1 : S98304x512.Idx → Elt F .f32) : S98304x512.Idx → Elt F .f32 := clipSum (s := S98304x512) a0 a1

/-- The three windows move together: at every grid point they name the same block of rows, and the one block of
    columns; there are 32 row blocks. -/
theorem blocks_together : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 31 ∧ win0_2.index t (1 : Fin 2) = 0 :=
  (by decide +kernel : ∀ t : Fin grid0.N, _)

/-- Every one of the 32 row blocks is some grid point's. -/
theorem every_block : ∀ q : Fin 32, ∃ t : Fin cfg0.N, win0_2.index t = ![q.val, 0] :=
  (by decide +kernel : ∀ q : Fin 32, ∃ t : Fin grid0.N, win0_2.index t = ![q.val, 0])

/-- What grid point `t` writes back is block `t` of the entrywise clipped sum of the operand arrays. -/
theorem flushed_eq (c : Dev nD) (t : Fin cfg0.N) :
    (dats m 0 c).flushed 2 t
      = ((cfg0.win 2).blk t).view.read (Elt F) (relaid (V m c main_call0_v0) (V m c main_call0_v1)) := by
  show (cfg0.win 2).cut (grid0.coords t) ((dats m 0 c).after 2 t) = _
  rw [after0_2]
  unfold out0_2
  rw [View.canon_unit_zero offsets_zero]
  simp only [View.ld_unit_zero (S := S3072x512) offsets_zero]
  rw [payload_eq]
  obtain ⟨e0, e1, e2, e3, e4, e5⟩ := blocks_together t
  funext j
  show clip01 (V m c main_call0_v0 (((cfg0.win 0).blk t).view.emb j)) (V m c main_call0_v1 (((cfg0.win 1).blk t).view.emb j))
    = clip01 (V m c main_call0_v0 (((cfg0.win 2).blk t).view.emb j)) (V m c main_call0_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 3072 + 1 * (j 0).val = win0_2.index t (0 : Fin 2) * 3072 + 1 * (j 0).val; omega
    | ⟨1, _⟩ => show win0_0.index t (1 : Fin 2) * 512 + 1 * (j 1).val = win0_2.index t (1 : Fin 2) * 512 + 1 * (j 1).val; omega
  have h1 : ((cfg0.win 1).blk t).view.emb j = ((cfg0.win 2).blk t).view.emb j := by
    funext a; apply Fin.ext
    match a with
    | ⟨0, _⟩ => show win0_1.index t (0 : Fin 2) * 3072 + 1 * (j 0).val = win0_2.index t (0 : Fin 2) * 3072 + 1 * (j 0).val; omega
    | ⟨1, _⟩ => show win0_1.index t (1 : Fin 2) * 512 + 1 * (j 1).val = win0_2.index t (1 : Fin 2) * 512 + 1 * (j 1).val; omega
  rw [h0, h1]

/-! ## The 32 blocks tile the array -/

/-- An index of the array is in grid point `t`'s block iff, on each axis, it is in the block's range. -/
theorem mem_block (t : Fin cfg0.N) (i : S98304x512.Idx) :
    i ∈ ((cfg0.win 2).blk t).view.set ↔ ∀ a : Fin 2, win0_2.index t a * S3072x512.size a ≤ (i a).val
      ∧ (i a).val < win0_2.index t a * S3072x512.size a + S3072x512.size a := by
  show i ∈ ((View.whole main_call0_v2).slice (win0_2.rect t)).set ↔ _
  rw [View.set_slice_whole, Rect.mem_set_unit]
  exact Iff.rfl

/-- Row `r` lies in row block `r / 3072`. -/
theorem covered (i : S98304x512.Idx) :
    ∃ t : Fin cfg0.N, (cfg0.win 2).flush t = true ∧ i ∈ ((cfg0.win 2).blk t).view.set := by
  have hi0 : (i 0).val < 98304 := (i 0).isLt
  have hi1 : (i 1).val < 512 := (i 1).isLt
  obtain ⟨t, ht⟩ := every_block ⟨(i 0).val / 3072, by omega⟩
  have q0 : win0_2.index t (0 : Fin 2) = (i 0).val / 3072 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 3072 ≤ (i 0).val ∧ (i 0).val < win0_2.index t (0 : Fin 2) * 3072 + 3072; omega
  | ⟨1, _⟩ => show win0_2.index t (1 : Fin 2) * 512 ≤ (i 1).val ∧ (i 1).val < win0_2.index t (1 : Fin 2) * 512 + 512; omega

/-- After the region the 98304 x 512 result holds the entrywise clipped sum of the two operand arrays. -/
theorem region_result (c : Dev nD) :
    (dats m 0 c).arrAt 2 cfg0.N = relaid (V m c main_call0_v0) (V m c main_call0_v1) :=
  (dats m 0 c).arrAt_eq_of_cover 2 _ (fun t _ => flushed_eq m c t) covered

/-! ## Around the region -/

/-- The region finds, as its first operand, the first argument re-laid as 98304 rows of 512 entries; -/
theorem operand0 (c : Dev nD) : (V m c main_call0_v0 : S98304x512.Idx → Elt F .f32)
    = shapeCast S98304x512 (m ((c : Thread nD τ).loc main_arg0)) shapeCasts_S64x3x512x512_S98304x512 := by
  show StableHlo.after hostOps0 (fun b => m (c, b)) (Proc.devRef .tc main_call0_v0) = _
  after_results
  rfl

/-- and as its second operand the second argument re-laid the same way. -/
theorem operand1 (c : Dev nD) : (V m c main_call0_v1 : S98304x512.Idx → Elt F .f32)
    = shapeCast S98304x512 (m ((c : Thread nD τ).loc main_arg1)) shapeCasts_S64x3x512x512_S98304x512 := by
  show StableHlo.after hostOps0 (fun b => m (c, b)) (Proc.devRef .tc main_call0_v1) = _
  after_results
  rfl

/-- The one line after the region lays the region's 98304 x 512 result back under the arguments' shape. -/
theorem laid_back (c : Dev nD) (X : S98304x512.Idx → Elt F .f32) (hX : (dats m 0 c).arrAt 2 cfg0.N = X) :
    Pipeline.afterTail₀ cfgs (dats m) 0 (V0 m) [hostOps1] c main_v0
      = shapeCast S64x3x512x512 X shapeCasts_S98304x512_S64x3x512x512 := by
  unfold Pipeline.afterTail₀
  show StableHlo.after hostOps1 _ (Proc.devRef .tc main_v0) = _
  after_results
  have e : Pipeline.withArrays (cfgs 0).spec c (V0 m c) (fun w => (dats m 0 c).arrAt w (cfgs 0).N)
      (Proc.devRef .tc main_call0_v2) = X :=
    (Pipeline.withArrays_arr spec0 launch0.win.arr_inj c _ _ 2).trans hX
  funext i
  exact congrArg (fun A : S98304x512.Idx → Elt F .f32 =>
    shapeCast S64x3x512x512 A shapeCasts_S98304x512_S64x3x512x512 i) e

/-- THE RESULT: the entrywise clipped sum of the two arguments — re-laid, clipped block by block, and laid back. -/
theorem result_eq (c : Dev nD) :
    Pipeline.afterTail₀ cfgs (dats m) 0 (V0 m) [hostOps1] c main_v0
      = clipSum (s := S64x3x512x512) (m ((c : Thread nD τ).loc main_arg0)) (m ((c : Thread nD τ).loc main_arg1)) := by
  rw [laid_back m c _ (region_result m c), operand0, operand1]
  exact shapeCast_clipSum_shapeCast _ _ _ _

/-! ## The run, read -/

/-- Every weakly fair execution of the kernel's program terminates with its result array at the entrywise clipped sum
    of the two arguments, and the arguments as they were. -/
theorem run : θ_run defs (onTc (τ := τ) (main (F := F))) ⟨m, fun _ => 0, ρ⟩ fun r => ∀ c : Dev nD,
      r.2.mem ((c : Thread nD τ).loc main_v0)
        = clipSum (s := S64x3x512x512) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v0 (Pipeline.mem_restRefs_of main_v0 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.ClipValue

end
-- ==== Proof.lean ====
/-
  The certificate of a Gaussian-noise layer: `clip (x + noise) 0 1`, entry by entry, over two arrays of
  64 x 3 x 512 x 512 floats.

  The kernel's program re-lays both arrays as 98304 rows of 512 entries, adds and clips them 3072 rows at a time over a
  grid of 32 points, and lays the result back under the arguments' shape; the reference adds the two arrays and clips
  the sum with a maximum against the splat of 0 and a minimum against the splat of 1. Both apply, at every entry, the
  same three operations in the same order to the same two operands and the same two constants (the float words of 0
  and of 1), so at the ideal instance — as at any other — each result entry is `min 1 (max 0 (x + noise))` of the
  arguments' entries at that index (`Cert.ClipSum.clipSum`). No law of the extended reals is used and the inputs'
  finiteness is never opened: the only thing to see is that an entrywise function commutes with re-laying the entries,
  and that the 32 blocks tile the re-laid array.

  The three frames: the kernel's two programs by their generated frame runs; the reference, which has no kernel, by its
  generated run with the result dropped. The idealization rewrote nothing, so `preserves` has nothing to state. The
  value claim: the kernel's run read at its result (`Cert.KernelIdeal.ClipValue.run`) beside the reference's run, whose
  result term is the same function of the arguments (`Cert.ReferenceIdeal.RefValue.result_eq`).
-/
import proofs.«403208_j61426622267935_3_alg».proof.Defs
import proofs.«403208_j61426622267935_3_alg».proof.Proof.Gen.Kernel
import proofs.«403208_j61426622267935_3_alg».proof.Proof.Gen.Kernel.Skeleton
import proofs.«403208_j61426622267935_3_alg».proof.Proof.Gen.Kernel.Launch
import proofs.«403208_j61426622267935_3_alg».proof.Proof.Gen.Kernel.Points
import proofs.«403208_j61426622267935_3_alg».proof.Proof.Gen.Kernel.Frame
import proofs.«403208_j61426622267935_3_alg».proof.Proof.Gen.KernelIdeal
import proofs.«403208_j61426622267935_3_alg».proof.Proof.Gen.KernelIdeal.Skeleton
import proofs.«403208_j61426622267935_3_alg».proof.Proof.Gen.KernelIdeal.Launch
import proofs.«403208_j61426622267935_3_alg».proof.Proof.Gen.KernelIdeal.Points
import proofs.«403208_j61426622267935_3_alg».proof.Proof.Gen.KernelIdeal.Frame
import proofs.«403208_j61426622267935_3_alg».proof.Proof.Gen.ReferenceIdeal
import proofs.«403208_j61426622267935_3_alg».proof.Proof.Gen.Pre_finite_inputs
import proofs.«403208_j61426622267935_3_alg».proof.Proof.Gen.ReferenceIdeal.Run
import proofs.«403208_j61426622267935_3_alg».proof.Proof.ClipSum
import proofs.«403208_j61426622267935_3_alg».proof.Proof.KernelValue
import Idealize.ShloMosaic.Adequacy
import Idealize.ShloMosaic.Init

noncomputable section

/-! ## The reference's result is the entrywise clipped sum -/

namespace Cert.ReferenceIdeal.RefValue

open Idealize.ShloMosaic Cert.ReferenceIdeal Cert.ReferenceIdeal.Gen Cert.ClipSum

variable {F : FTy → Type} [FloatOps F]

/-- The term the reference's run states for its result: at an index the splats read their one constant, and the
    minimum, the maximum and the sum read their operands there. -/
theorem result_eq (x n : FVec F S64x3x512x512 .f32) :
    minimumf (broadcastInDim S64x3x512x512 ![] bcast_S_S64x3x512x512 (id (constant S_ .f32 0x3F800000#32)))
      (maximumf (broadcastInDim S64x3x512x512 ![] bcast_S_S64x3x512x512 (id (constant S_ .f32 0x00000000#32))) (addf x n))
    = clipSum x n := rfl

end Cert.ReferenceIdeal.RefValue

/-! ## The claims -/

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two arguments both programs end with their result at the entrywise clipped sum of
    those arguments. -/
theorem algebraic : Cert.algebraic_KernelIdeal_ReferenceIdeal := by
  intro m ρ m' ρ' _ hagree
  refine ⟨_, Cert.KernelIdeal.ClipValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
